-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Block.lean ====
/-
  What one grid point's body writes, read at an entry of its 5000 × 128 block.

  The body loads a block `a` of the neighbour means and a block `x` of the features (5000 rows each), the two
  whole weight matrices and the bias; it multiplies `a · Wl` and `x · Wr` into zero accumulators, adds the
  products, adds the bias row to every row, and (first layer only) clamps below at zero. Over the extended
  reals the changes of float format are the identity and a product into a zero accumulator is the plain sum
  over the contracted axis, so entry `(r, f)` of what is stored is

      (∑ₖ a[r,k] · Wl[k,f]  +  ∑ₖ x[r,k] · Wr[k,f])  +  b[f]        (clamped at zero in the first layer).
-/
import proofs.«176177_j42150809043596_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Sage.Block

open Idealize.ShloMosaic Cert.KernelIdeal Cert.KernelIdeal.Gen

/-- Entry `(r, k)` of a 5000-row block, `r` the row of `j`. -/
abbrev brow (j : S5000x128.Idx) (k : Fin 128) : S5000x128.Idx := fun a => match a with
  | ⟨0, _⟩ => ⟨(j 0).val, (j 0).isLt⟩
  | ⟨1, _⟩ => ⟨k.val, k.isLt⟩

/-- Entry `(k, f)` of a weight matrix, `f` the column of `j`. -/
abbrev bcol (j : S5000x128.Idx) (k : Fin 128) : S128x128.Idx := fun a => match a with
  | ⟨0, _⟩ => ⟨k.val, k.isLt⟩
  | ⟨1, _⟩ => ⟨(j 1).val, (j 1).isLt⟩

/-- Entry `f` of the bias, `f` the column of `j`. -/
abbrev blane (j : S5000x128.Idx) : S128.Idx := fun a => match a with
  | ⟨0, _⟩ => ⟨(j 1).val, (j 1).isLt⟩

/-! ## The product's operand indices: rows × contraction, contraction × columns -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block times a weight matrix into the zero accumulator, at entry `j`: the sum over the 128 contracted
    features of row entry times column entry. -/
theorem mm_apply {φ₁ φ₂ : FTy} (l : FVec Ideal S5000x128 φ₁) (r : FVec Ideal S128x128 φ₂) (j : S5000x128.Idx) :
    matmul dot_S5000x128_S128x128_S5000x128_1_0_0_1_n_n none l r (constant S5000x128 .f32 0x00000000#32) j
      = ∑ k : Fin 128, l (brow j k) * r (bcol j k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_0 _ _).trans hk
    | ⟨1, _⟩ => exact rhs_1 _ _)
  rw [el, er]

/-- The bias laid out as one row and repeated down the block, at entry `j`: the bias at `j`'s column. -/
theorem bias_apply {α : Type} (b : S128.Idx → α) (j : S5000x128.Idx) :
    broadcastTo S5000x128 (shapeCast S1x128 b shapeCasts_S128_S1x128) broadcasts_S1x128_S5000x128 j = b (blane j) := by
  rw [broadcastTo_apply (shapeCast S1x128 b shapeCasts_S128_S1x128) broadcasts_S1x128_S5000x128 j
    (fun a => match a with | ⟨0, _⟩ => ⟨0, Nat.one_pos⟩ | ⟨1, _⟩ => ⟨(j 1).val, (j 1).isLt⟩)
    (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])]
  rw [shapeCast_addUnit_apply ![128] b shapeCasts_S128_S1x128]
  exact congrArg b (funext fun a => match a with | ⟨0, _⟩ => rfl)

/-! ## The two bodies -/

/-- First layer: entry `j` of what the body stores. -/
theorem pay0_apply (x0 x1 : Vec Ideal S5000x128 .f32) (x2 x3 : Vec Ideal S128x128 .f32) (x4 : Vec Ideal S128 .f32)
    (j : S5000x128.Idx) :
    k0_pay1 (F := Ideal) x0 x1 x2 x3 x4 j
      = max (((∑ k : Fin 128, x0 (brow j k) * x2 (bcol j k)) + ∑ k : Fin 128, x1 (brow j k) * x3 (bcol j k)) + x4 (blane j)) 0 := by
  unfold k0_pay1
  show max ((matmul (F := Ideal) dot_S5000x128_S128x128_S5000x128_1_0_0_1_n_n none _ _ (constant (F := Ideal) S5000x128 .f32 0x00000000#32) j
      + matmul (F := Ideal) dot_S5000x128_S128x128_S5000x128_1_0_0_1_n_n none _ _ (constant (F := Ideal) S5000x128 .f32 0x00000000#32) j)
      + broadcastTo S5000x128 (shapeCast S1x128 x4 shapeCasts_S128_S1x128) broadcasts_S1x128_S5000x128 j) (Ideal.ofBits .f32 0x00000000#32) = _
  rw [mm_apply, mm_apply, bias_apply, Ideal.ofBits_zero_f32, shapeCast_self]
  rfl

/-- Second layer: entry `j` of what the body stores. -/
theorem pay1_apply (x0 x1 : Vec Ideal S5000x128 .f32) (x2 x3 : Vec Ideal S128x128 .f32) (x4 : Vec Ideal S128 .f32)
    (j : S5000x128.Idx) :
    k1_pay1 (F := Ideal) x0 x1 x2 x3 x4 j
      = ((∑ k : Fin 128, x0 (brow j k) * x2 (bcol j k)) + ∑ k : Fin 128, x1 (brow j k) * x3 (bcol j k)) + x4 (blane j) := by
  unfold k1_pay1
  show (matmul (F := Ideal) dot_S5000x128_S128x128_S5000x128_1_0_0_1_n_n none _ _ (constant (F := Ideal) S5000x128 .f32 0x00000000#32) j
      + matmul (F := Ideal) dot_S5000x128_S128x128_S5000x128_1_0_0_1_n_n none _ _ (constant (F := Ideal) S5000x128 .f32 0x00000000#32) j)
      + broadcastTo S5000x128 (shapeCast S1x128 x4 shapeCasts_S128_S1x128) broadcasts_S1x128_S5000x128 j = _
  rw [mm_apply, mm_apply, bias_apply, shapeCast_self, shapeCast_self]
  rfl

end Cert.Sage.Block

end
-- ==== Proof.Spec.lean ====
/-
  The mathematics of one SAGEConv layer's dense half, index by index over the extended reals.

  A layer takes the neighbour means `a` and the node features `x` (both 100000 × 128), two weight matrices
  `Wl`, `Wr` (128 × 128) and a bias `b` (128), and returns at node `n`, feature `f`

      (∑ₖ a[n,k] · Wl[k,f]  +  ∑ₖ x[n,k] · Wr[k,f])  +  b[f]            (`lin`)

  the first layer followed by `max · 0` (`linRelu`). Nothing else is said here: the neighbour means are whatever
  the gather / segment-sum / divide chain of the two programs makes of its input, the same chain in both.
-/
import proofs.«176177_j42150809043596_1_alg».proof.KernelIdeal
import Idealize.ShloMosaic.PureOps.Ideal

noncomputable section

namespace Cert.Sage

open Idealize.ShloMosaic Cert.KernelIdeal

/-- Entry `(n, k)` of a 100000 × 128 array, `n` the row of `i`. -/
abbrev rowAt (i : S100000x128.Idx) (k : Fin 128) : S100000x128.Idx := fun a => match a with
  | ⟨0, _⟩ => ⟨(i 0).val, (i 0).isLt⟩
  | ⟨1, _⟩ => ⟨k.val, k.isLt⟩

/-- Entry `(k, f)` of a 128 × 128 weight matrix, `f` the column of `i`. -/
abbrev colAt (i : S100000x128.Idx) (k : Fin 128) : S128x128.Idx := fun a => match a with
  | ⟨0, _⟩ => ⟨k.val, k.isLt⟩
  | ⟨1, _⟩ => ⟨(i 1).val, (i 1).isLt⟩

/-- Entry `f` of the bias, `f` the column of `i`. -/
abbrev laneAt (i : S100000x128.Idx) : S128.Idx := fun a => match a with
  | ⟨0, _⟩ => ⟨(i 1).val, (i 1).isLt⟩

/-- The dense half of a layer: `a · Wl + x · Wr + b`, the two products added first. -/
def lin (a x : S100000x128.Idx → EReal) (Wl Wr : S128x128.Idx → EReal) (b : S128.Idx → EReal) :
    S100000x128.Idx → EReal := fun i =>
  ((∑ k : Fin 128, a (rowAt i k) * Wl (colAt i k)) + ∑ k : Fin 128, x (rowAt i k) * Wr (colAt i k)) + b (laneAt i)

/-- The first layer's dense half: `lin` clamped below at zero. -/
def linRelu (a x : S100000x128.Idx → EReal) (Wl Wr : S128x128.Idx → EReal) (b : S128.Idx → EReal) :
    S100000x128.Idx → EReal := fun i => max (lin a x Wl Wr b i) 0

end Cert.Sage

end
-- ==== Proof.Final.lean ====
/-
  Each region's output array as ONE function of the arrays the region is entered with.

  A region runs the body at 20 grid points; point `t` reads rows `5000·t … 5000·t + 4999` of the neighbour
  means and of the features, the whole weight matrices and the whole bias, and writes the same rows of the
  output. An entry of the body's block is the layer's formula on that block (Block.lean); re-indexing the
  block's rows to the arrays' rows makes what point `t` writes back the block `t` of the layer's result on the
  whole arrays, and the 20 blocks tile the 100000 rows, so the output array ends as that result everywhere.
  Stated at an arbitrary valuation `V` of the buffers at the region's entry: the run instantiates it.
-/
import proofs.«176177_j42150809043596_1_alg».proof.Proof.Gen.KernelIdeal.Frame
import proofs.«176177_j42150809043596_1_alg».proof.Proof.Block
import proofs.«176177_j42150809043596_1_alg».proof.Proof.Spec
import Idealize.ShloMosaic.Lib.Pipeline.Value

set_option maxRecDepth 16384

noncomputable section

namespace Cert.Sage.Final

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Region 0: the first layer's dense half -/

/-- The printed index maps over the 20 grid points: the two row-blocked inputs move with the output's row block,
    whose index is the point's number; the weights and the bias stay at block 0; nothing moves along the features. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is its block of rows of the layer's result on the arrays as the region finds them:
    row `r` of the point's blocks is row `5000·t + r` of the arrays, and the weights and bias are read whole. -/
theorem flushed0_eq (c : Dev nD) (t : Fin cfg0.N) :
    (dat0 V c).flushed 5 t = ((cfg0.win 5).blk t).view.read (Elt Ideal)
      (Sage.linRelu (V c main_v22) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts0 t
  funext j
  show k0_pay1 (F := Ideal) (iblk0 V c 0 t) (iblk0 V c 1 t) (iblk0 V c 2 t) (iblk0 V c 3 t) (iblk0 V c 4 t) j
    = Sage.linRelu (V c main_v22) (V c main_arg0) (V c main_arg2) (V c main_arg3) (V c main_arg4) (((cfg0.win 5).blk t).view.emb j)
  refine (Block.pay0_apply (iblk0 V c 0 t) (iblk0 V c 1 t) (iblk0 V c 2 t) (iblk0 V c 3 t) (iblk0 V c 4 t) j).trans ?_
  have ha : ∀ k : Fin 128, iblk0 V c 0 t (Block.brow j k) = V c main_v22 (Sage.rowAt (((cfg0.win 5).blk t).view.emb j) k) := fun k => by
    show V c main_v22 (((cfg0.win 0).blk t).view.emb (Block.brow j k)) = _
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have hx : ∀ k : Fin 128, iblk0 V c 1 t (Block.brow j k) = V c main_arg0 (Sage.rowAt (((cfg0.win 5).blk t).view.emb j) k) := fun k => by
    show V c main_arg0 (((cfg0.win 1).blk t).view.emb (Block.brow j k)) = _
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  have hl : ∀ k : Fin 128, iblk0 V c 2 t (Block.bcol j k) = V c main_arg2 (Sage.colAt (((cfg0.win 5).blk t).view.emb j) k) := fun k => by
    show V c main_arg2 (((cfg0.win 2).blk t).view.emb (Block.bcol j k)) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have hr : ∀ k : Fin 128, iblk0 V c 3 t (Block.bcol j k) = V c main_arg3 (Sage.colAt (((cfg0.win 5).blk t).view.emb j) k) := fun k => by
    show V c main_arg3 (((cfg0.win 3).blk t).view.emb (Block.bcol j k)) = _
    refine congrArg (V c main_arg3) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  have hb : iblk0 V c 4 t (Block.blane j) = V c main_arg4 (Sage.laneAt (((cfg0.win 5).blk t).view.emb j)) := by
    show V c main_arg4 (((cfg0.win 4).blk t).view.emb (Block.blane j)) = _
    refine congrArg (V c main_arg4) (funext fun a => Fin.ext ?_)
    match a with
    | ⟨0, _⟩ => show win0_4.index t (0 : Fin 1) * 128 + 1 * (j 1).val = win0_5.index t (1 : Fin 2) * 128 + 1 * (j 1).val; omega
  unfold Sage.linRelu Sage.lin
  refine congrArg₂ max (congrArg₂ (· + ·) (congrArg₂ (· + ·) (Finset.sum_congr rfl fun k _ => ?_) (Finset.sum_congr rfl fun k _ => ?_)) hb) rfl
  · rw [ha k, hl k]
  · rw [hx k, hr k]

/-- An entry of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- The 20 blocks of 5000 rows tile the 100000 rows: row `n` lies in the block of point `n / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21, e30, e31, e40, e50, e51⟩ := idx_facts0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the region: the layer's result on the arrays the region was entered with. -/
theorem final0 (c : Dev nD) :
    (dat0 V c).arrAt 5 cfg0.N = Sage.linRelu (V c main_v22) (V c main_arg0) (V c main_arg2) (V c main_arg3) (V c main_arg4) :=
  (dat0 V c).arrAt_eq_of_cover 5 _ (fun t _ => flushed0_eq V c t) cover0

/-! ## Region 1: the second layer's dense half -/

/-- The printed index maps over the 20 grid points: the two row-blocked inputs move with the output's row block,
    whose index is the point's number; the weights and the bias stay at block 0; nothing moves along the features. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT `t` WRITES BACK is its block of rows of the layer's result on the arrays as the region finds them:
    row `r` of the point's blocks is row `5000·t + r` of the arrays, and the weights and bias are read whole. -/
theorem flushed1_eq (c : Dev nD) (t : Fin cfg1.N) :
    (dat1 V c).flushed 5 t = ((cfg1.win 5).blk t).view.read (Elt Ideal)
      (Sage.lin (V c main_v42) (V c main_v23) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x128) hz2, View.ld_unit_zero (S := S128) hz1]
  obtain ⟨e00, e01, e10, e11, e20, e21, e30, e31, e40, e50, e51⟩ := idx_facts1 t
  funext j
  show k1_pay1 (F := Ideal) (iblk1 V c 0 t) (iblk1 V c 1 t) (iblk1 V c 2 t) (iblk1 V c 3 t) (iblk1 V c 4 t) j
    = Sage.lin (V c main_v42) (V c main_v23) (V c main_arg5) (V c main_arg6) (V c main_arg7) (((cfg1.win 5).blk t).view.emb j)
  refine (Block.pay1_apply (iblk1 V c 0 t) (iblk1 V c 1 t) (iblk1 V c 2 t) (iblk1 V c 3 t) (iblk1 V c 4 t) j).trans ?_
  have ha : ∀ k : Fin 128, iblk1 V c 0 t (Block.brow j k) = V c main_v42 (Sage.rowAt (((cfg1.win 5).blk t).view.emb j) k) := fun k => by
    show V c main_v42 (((cfg1.win 0).blk t).view.emb (Block.brow j k)) = _
    refine congrArg (V c main_v42) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have hx : ∀ k : Fin 128, iblk1 V c 1 t (Block.brow j k) = V c main_v23 (Sage.rowAt (((cfg1.win 5).blk t).view.emb j) k) := fun k => by
    show V c main_v23 (((cfg1.win 1).blk t).view.emb (Block.brow j k)) = _
    refine congrArg (V c main_v23) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  have hl : ∀ k : Fin 128, iblk1 V c 2 t (Block.bcol j k) = V c main_arg5 (Sage.colAt (((cfg1.win 5).blk t).view.emb j) k) := fun k => by
    show V c main_arg5 (((cfg1.win 2).blk t).view.emb (Block.bcol j k)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have hr : ∀ k : Fin 128, iblk1 V c 3 t (Block.bcol j k) = V c main_arg6 (Sage.colAt (((cfg1.win 5).blk t).view.emb j) k) := fun k => by
    show V c main_arg6 (((cfg1.win 3).blk t).view.emb (Block.bcol j k)) = _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  have hb : iblk1 V c 4 t (Block.blane j) = V c main_arg7 (Sage.laneAt (((cfg1.win 5).blk t).view.emb j)) := by
    show V c main_arg7 (((cfg1.win 4).blk t).view.emb (Block.blane j)) = _
    refine congrArg (V c main_arg7) (funext fun a => Fin.ext ?_)
    match a with
    | ⟨0, _⟩ => show win1_4.index t (0 : Fin 1) * 128 + 1 * (j 1).val = win1_5.index t (1 : Fin 2) * 128 + 1 * (j 1).val; omega
  unfold Sage.lin
  refine (congrArg₂ (· + ·) (congrArg₂ (· + ·) (Finset.sum_congr rfl fun k _ => ?_) (Finset.sum_congr rfl fun k _ => ?_)) hb)
  · rw [ha k, hl k]
  · rw [hx k, hr k]

/-- An entry of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- The 20 blocks of 5000 rows tile the 100000 rows: row `n` lies in the block of point `n / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21, e30, e31, e40, e50, e51⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer's result on the arrays the region was entered with. -/
theorem final1 (c : Dev nD) :
    (dat1 V c).arrAt 5 cfg1.N = Sage.lin (V c main_v42) (V c main_v23) (V c main_arg5) (V c main_arg6) (V c main_arg7) :=
  (dat1 V c).arrAt_eq_of_cover 5 _ (fun t _ => flushed1_eq V c t) cover1

end Cert.Sage.Final

end
-- ==== Proof.Agg.lean ====
/-
  The neighbour-mean chain, as ONE function of the node array it aggregates and of the edge list.

  Both programs form the neighbour means of a node array `h` by the same host operations: the source row of
  the edge list (a negative index wrapped by adding the node count) gathers rows of `h`; the destination row
  scatter-adds the gathered rows into a zero array, and scatter-adds ones into a zero vector (the degrees); the
  sums are divided by the degrees clamped below at one. The chain is applied twice, to the input features and
  to the first layer's result, and nothing in the certificate depends on what it computes: it is named here
  (`agg`) and never opened. The pieces that depend only on the edge list are the reference's own stages.
-/
import proofs.«176177_j42150809043596_1_alg».proof.Proof.Gen.ReferenceIdeal.Read

noncomputable section

namespace Cert.Sage

open Idealize.ShloMosaic Cert.ReferenceIdeal Cert.ReferenceIdeal.Gen Cert.ReferenceIdeal.Read

variable {F : FTy → Type} [FloatOps F]

/-- The rows of `h` gathered at the edges' sources and summed per destination. -/
def aggSum (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1 (val_main_v37 (F := F)) (val_main_v38 (F := F) e)
    (Host.gather gather_S100000x128_S1600000x1_S1600000x128_1_0_n_n_0_1_1128 h (val_main_v35 (F := F) e))

/-- Neighbour means of `h` along the edge list `e`: the per-destination sums over the clamped degree. -/
def agg (h : (⟨S100000x128, .f32⟩ : BufTy).Contents (Elt F)) (e : (⟨S2x1600000, .i32⟩ : BufTy).Contents (Elt F)) :
    (⟨S100000x128, .f32⟩ : BufTy).Contents (Elt F) :=
  Host.divf (aggSum h e) (val_main_v47 (F := F) e)

/-- A quotient of equal operands. -/
theorem divf_congr {s : Shape} {φ : FTy} {a a' b b' : FVec F s φ} (ha : a = a') (hb : b = b') :
    Host.divf a b = Host.divf a' b' := by rw [ha, hb]

/-- The reference's second chain is `agg` of its first layer's result. -/
theorem ref_second (x0 : (⟨S100000x128, .f32⟩ : BufTy).Contents (Elt F)) (x1 : (⟨S2x1600000, .i32⟩ : BufTy).Contents (Elt F))
    (x2 x3 : (⟨S128x128, .f32⟩ : BufTy).Contents (Elt F)) (x4 : (⟨S128, .f32⟩ : BufTy).Contents (Elt F)) :
    val_main_v48 (F := F) x0 x1 x2 x3 x4 = agg (val_main_v29 (F := F) x0 x1 x2 x3 x4) x1 := by
  unfold val_main_v48 val_main_v39 val_main_v36 agg aggSum
  rfl

/-- The reference's first chain is `agg` of the input features: the two chains are the same operations. -/
theorem ref_first (x0 : (⟨S100000x128, .f32⟩ : BufTy).Contents (Elt F)) (x1 : (⟨S2x1600000, .i32⟩ : BufTy).Contents (Elt F)) :
    val_main_v22 (F := F) x0 x1 = agg x0 x1 := by
  unfold val_main_v22 val_main_v13 val_main_v10 val_main_v21 val_main_v20 val_main_v19 val_main_v17 val_main_v18 val_main_cst_3
    val_main_v16 val_main_v15 val_main_cst_2 val_main_v14 val_main_cst_1 val_main_v12 val_main_v11 val_main_cst val_main_v9 val_main_v8
    val_main_v7 val_main_v6 val_main_c_0 val_main_v5 val_main_v4 val_main_c
  unfold agg aggSum val_main_v47 val_main_v46 val_main_v45 val_main_v43 val_main_v44 val_main_cst_9 val_main_v42 val_main_v41 val_main_cst_8
    val_main_v40 val_main_cst_7 val_main_v38 val_main_v37 val_main_cst_6 val_main_v35 val_main_v34 val_main_v33 val_main_v32
    val_main_c_5 val_main_v31 val_main_v30 val_main_c_4
  rfl

end Cert.Sage

end
-- ==== Proof.Whole.lean ====
/-
  The whole network as one function of its eight arguments: two SAGEConv layers around the neighbour-mean chain.

      h   = max (agg x e · W_l1 + x · W_r1 + b1) 0
      out = agg h e · W_l2 + h · W_r2 + b2

  Both programs are shown to end at `out` of their arguments.
-/
import proofs.«176177_j42150809043596_1_alg».proof.Proof.Spec
import proofs.«176177_j42150809043596_1_alg».proof.Proof.Agg

noncomputable section

namespace Cert.Sage

open Idealize.ShloMosaic

/-- The first layer's result. -/
def hidden (x : Cert.KernelIdeal.S100000x128.Idx → EReal) (e : (⟨Cert.ReferenceIdeal.S2x1600000, .i32⟩ : BufTy).Contents (Elt Ideal))
    (wl1 wr1 : Cert.KernelIdeal.S128x128.Idx → EReal) (b1 : Cert.KernelIdeal.S128.Idx → EReal) :
    Cert.KernelIdeal.S100000x128.Idx → EReal :=
  linRelu (agg (F := Ideal) x e) x wl1 wr1 b1

/-- The network's result. -/
def out (x : Cert.KernelIdeal.S100000x128.Idx → EReal) (e : (⟨Cert.ReferenceIdeal.S2x1600000, .i32⟩ : BufTy).Contents (Elt Ideal))
    (wl1 wr1 : Cert.KernelIdeal.S128x128.Idx → EReal) (b1 : Cert.KernelIdeal.S128.Idx → EReal)
    (wl2 wr2 : Cert.KernelIdeal.S128x128.Idx → EReal) (b2 : Cert.KernelIdeal.S128.Idx → EReal) :
    Cert.KernelIdeal.S100000x128.Idx → EReal :=
  lin (agg (F := Ideal) (hidden x e wl1 wr1 b1) e) (hidden x e wl1 wr1 b1) wl2 wr2 b2

end Cert.Sage

end
-- ==== Proof.KernelValue.lean ====
/-
  The kernel program's result buffer after the run, as the network's function of the launch arguments.

  The run leaves the result buffer at what the second region's write-backs make of the buffers at its entry.
  Walking back through the run: the second region's output is the second layer's formula (Final.lean) of its
  five input arrays; of those, the weights and bias are the launch arguments (no host operation and no region
  writes them), the features are the first region's output, and the means are the neighbour-mean chain of that
  output and the edge list (the host operations between the regions, which reuse the edge rows sliced before
  the first region). The first region's output is the first layer's formula of the launch arguments and of
  the chain applied to the input features (the host operations before it).
-/
import proofs.«176177_j42150809043596_1_alg».proof.Proof.Gen.KernelIdeal.Frame
import proofs.«176177_j42150809043596_1_alg».proof.Proof.Final
import proofs.«176177_j42150809043596_1_alg».proof.Proof.Whole
import Idealize.ShloMosaic.Lib.StableHlo.Run

set_option maxRecDepth 16384

noncomputable section

namespace Cert.Sage.Kernel

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first region's entry: the host operations before it -/

/-- The edge list's source row, sliced before the first region. -/
theorem src_row (c : Dev nD) :
    W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

/-- The edge list's destination row, sliced before the first region. -/
theorem dst_row (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The first region's means: the chain of the input features. -/
theorem means0 (c : Dev nD) :
    V1 m ρ c main_v22 = Sage.agg (F := Ideal) (m ((c : Thread nD τ).loc main_arg0)) (m ((c : Thread nD τ).loc main_arg1)) := by
  rw [← Sage.ref_first]
  show StableHlo.after hostOps0 (W0 m ρ c) (Proc.devRef .tc main_v22) = _
  after_results_simp
  unfold Cert.ReferenceIdeal.Read.val_main_v22
  refine Sage.divf_congr ?_ ?_
  · rfl
  · rfl

theorem kept0_arg0 (c : Dev nD) : V1 m ρ c main_arg0 = m ((c : Thread nD τ).loc main_arg0) := by
  show StableHlo.after hostOps0 (W0 m ρ c) (Proc.devRef .tc main_arg0) = _
  after_results
theorem kept0_arg2 (c : Dev nD) : V1 m ρ c main_arg2 = m ((c : Thread nD τ).loc main_arg2) := by
  show StableHlo.after hostOps0 (W0 m ρ c) (Proc.devRef .tc main_arg2) = _
  after_results
theorem kept0_arg3 (c : Dev nD) : V1 m ρ c main_arg3 = m ((c : Thread nD τ).loc main_arg3) := by
  show StableHlo.after hostOps0 (W0 m ρ c) (Proc.devRef .tc main_arg3) = _
  after_results
theorem kept0_arg4 (c : Dev nD) : V1 m ρ c main_arg4 = m ((c : Thread nD τ).loc main_arg4) := by
  show StableHlo.after hostOps0 (W0 m ρ c) (Proc.devRef .tc main_arg4) = _
  after_results
theorem kept0_arg1 (c : Dev nD) : W1 m ρ c (Proc.devRef .tc main_arg1) = m ((c : Thread nD τ).loc main_arg1) := by
  show StableHlo.after hostOps0 (W0 m ρ c) (Proc.devRef .tc main_arg1) = _
  after_results
theorem kept0_arg5 (c : Dev nD) : W1 m ρ c (Proc.devRef .tc main_arg5) = m ((c : Thread nD τ).loc main_arg5) := by
  show StableHlo.after hostOps0 (W0 m ρ c) (Proc.devRef .tc main_arg5) = _
  after_results
theorem kept0_arg6 (c : Dev nD) : W1 m ρ c (Proc.devRef .tc main_arg6) = m ((c : Thread nD τ).loc main_arg6) := by
  show StableHlo.after hostOps0 (W0 m ρ c) (Proc.devRef .tc main_arg6) = _
  after_results
theorem kept0_arg7 (c : Dev nD) : W1 m ρ c (Proc.devRef .tc main_arg7) = m ((c : Thread nD τ).loc main_arg7) := by
  show StableHlo.after hostOps0 (W0 m ρ c) (Proc.devRef .tc main_arg7) = _
  after_results

/-! ## The first region's exit -/

/-- The first region leaves its output at the first layer's result. -/
theorem hidden_eq (c : Dev nD) :
    W2 m ρ c (Proc.devRef .tc main_v23) = Sage.hidden (m ((c : Thread nD τ).loc main_arg0)) (m ((c : Thread nD τ).loc main_arg1))
      (m ((c : Thread nD τ).loc main_arg2)) (m ((c : Thread nD τ).loc main_arg3)) (m ((c : Thread nD τ).loc main_arg4)) := by
  refine (W2_arr m ρ c 5).trans ?_
  rw [Final.final0 (V1 m ρ) c, means0, kept0_arg0, kept0_arg2, kept0_arg3, kept0_arg4]
  rfl

/-! ## The second region's entry: the host operations between the regions -/

/-- The second region's means: the chain of the first region's output. -/
theorem means1 (c : Dev nD) :
    V3 m ρ c main_v42 = Sage.agg (F := Ideal) (W2 m ρ c (Proc.devRef .tc main_v23)) (m ((c : Thread nD τ).loc main_arg1)) := by
  show StableHlo.after hostOps1 (W2 m ρ c) (Proc.devRef .tc main_v42) = _
  after_results_simp
  rw [W2_of_ne m ρ c main_v1 (by decide), W2_of_ne m ρ c main_v3 (by decide), src_row, dst_row]
  unfold Sage.agg
  refine Sage.divf_congr ?_ ?_
  · rfl
  · rfl

theorem feats1 (c : Dev nD) : V3 m ρ c main_v23 = W2 m ρ c (Proc.devRef .tc main_v23) := by
  show StableHlo.after hostOps1 (W2 m ρ c) (Proc.devRef .tc main_v23) = _
  after_results
theorem kept1_arg5 (c : Dev nD) : V3 m ρ c main_arg5 = m ((c : Thread nD τ).loc main_arg5) := by
  show StableHlo.after hostOps1 (W2 m ρ c) (Proc.devRef .tc main_arg5) = _
  after_results
  exact (W2_of_ne m ρ c main_arg5 (by decide)).trans (kept0_arg5 m ρ c)
theorem kept1_arg6 (c : Dev nD) : V3 m ρ c main_arg6 = m ((c : Thread nD τ).loc main_arg6) := by
  show StableHlo.after hostOps1 (W2 m ρ c) (Proc.devRef .tc main_arg6) = _
  after_results
  exact (W2_of_ne m ρ c main_arg6 (by decide)).trans (kept0_arg6 m ρ c)
theorem kept1_arg7 (c : Dev nD) : V3 m ρ c main_arg7 = m ((c : Thread nD τ).loc main_arg7) := by
  show StableHlo.after hostOps1 (W2 m ρ c) (Proc.devRef .tc main_arg7) = _
  after_results
  exact (W2_of_ne m ρ c main_arg7 (by decide)).trans (kept0_arg7 m ρ c)

/-! ## The result -/

/-- THE RESULT BUFFER after the run is the network's function of the launch arguments. -/
theorem result (c : Dev nD) :
    W4 m ρ c (Proc.devRef .tc main_v43) = Sage.out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (W4_arr m ρ c 5).trans ?_
  rw [Final.final1 (V3 m ρ) c, means1, feats1, kept1_arg5, kept1_arg6, kept1_arg7, hidden_eq]
  rfl

end Cert.Sage.Kernel

end
-- ==== Proof.RefValue.lean ====
/-
  The reference's result, read stage by stage, is the two layers' formulas around the neighbour-mean chain.

  Its first layer is `max (a · W_l1 + x · W_r1 + b1) 0` with `a` the neighbour means of `x`, each `dot_general`
  the plain sum over the 128 contracted features; its second is `a' · W_l2 + h · W_r2 + b2` with `h` the first
  layer's result and `a'` the neighbour means of `h`. The generated stage lemmas read every operation at an
  index; the only hand work is that the operand indices they compute are the row / column / lane of the
  specification, and that both chains are the one function `agg`.
-/
import proofs.«176177_j42150809043596_1_alg».proof.Proof.Gen.ReferenceIdeal.Read
import proofs.«176177_j42150809043596_1_alg».proof.Proof.Spec
import proofs.«176177_j42150809043596_1_alg».proof.Proof.Agg
import proofs.«176177_j42150809043596_1_alg».proof.Proof.Whole

noncomputable section

namespace Cert.Sage.Ref

open Idealize.ShloMosaic Cert.ReferenceIdeal Cert.ReferenceIdeal.Gen Cert.ReferenceIdeal.Read Idealize.ShloMosaic.TcCoe Idealize.SL.Sem

/-! ## The operand indices of the four products and of the two bias rows -/

theorem l23 (i : S100000x128.Idx) (k : Fin 128) : lidx_main_v23 i k = Sage.rowAt i k :=
  funext fun a => Fin.ext (by match a with | ⟨0, _⟩ => rfl | ⟨1, _⟩ => rfl)
theorem r23 (i : S100000x128.Idx) (k : Fin 128) : ridx_main_v23 i k = Sage.colAt i k :=
  funext fun a => Fin.ext (by match a with | ⟨0, _⟩ => rfl | ⟨1, _⟩ => rfl)
theorem l24 (i : S100000x128.Idx) (k : Fin 128) : lidx_main_v24 i k = Sage.rowAt i k :=
  funext fun a => Fin.ext (by match a with | ⟨0, _⟩ => rfl | ⟨1, _⟩ => rfl)
theorem r24 (i : S100000x128.Idx) (k : Fin 128) : ridx_main_v24 i k = Sage.colAt i k :=
  funext fun a => Fin.ext (by match a with | ⟨0, _⟩ => rfl | ⟨1, _⟩ => rfl)
theorem l49 (i : S100000x128.Idx) (k : Fin 128) : lidx_main_v49 i k = Sage.rowAt i k :=
  funext fun a => Fin.ext (by match a with | ⟨0, _⟩ => rfl | ⟨1, _⟩ => rfl)
theorem r49 (i : S100000x128.Idx) (k : Fin 128) : ridx_main_v49 i k = Sage.colAt i k :=
  funext fun a => Fin.ext (by match a with | ⟨0, _⟩ => rfl | ⟨1, _⟩ => rfl)
theorem l50 (i : S100000x128.Idx) (k : Fin 128) : lidx_main_v50 i k = Sage.rowAt i k :=
  funext fun a => Fin.ext (by match a with | ⟨0, _⟩ => rfl | ⟨1, _⟩ => rfl)
theorem r50 (i : S100000x128.Idx) (k : Fin 128) : ridx_main_v50 i k = Sage.colAt i k :=
  funext fun a => Fin.ext (by match a with | ⟨0, _⟩ => rfl | ⟨1, _⟩ => rfl)
theorem b27 (i : S100000x128.Idx) : idx_main_v26 (idx_main_v27 i) = Sage.laneAt i :=
  funext fun a => Fin.ext (by match a with | ⟨0, _⟩ => rfl)
theorem b53 (i : S100000x128.Idx) : idx_main_v52 (idx_main_v53 i) = Sage.laneAt i :=
  funext fun a => Fin.ext (by match a with | ⟨0, _⟩ => rfl)

/-! ## The two layers -/

/-- The first layer's result (after `relu`) is `linRelu` of the first chain's means. -/
theorem layer1 (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal)) :
    val_main_v29 (F := Ideal) x0 x1 x2 x3 x4 = Sage.linRelu (val_main_v22 (F := Ideal) x0 x1) x0 x2 x3 x4 := by
  funext i
  rw [val_main_v29_apply, val_main_v28_apply, val_main_v25_apply, val_main_v23_apply, val_main_v24_apply, val_main_v27_apply,
    val_main_v26_apply, val_main_call0_v0_apply, val_main_call0_cst_apply]
  simp only [l23, r23, l24, r24, b27, Ideal.maximumf_def, Ideal.addf_def, Ideal.ofBits_def, Ideal.ofBits_zero_f32]
  rfl

/-- The second layer's result is `lin` of the second chain's means and the first layer's result. -/
theorem layer2 (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v54 (F := Ideal) x0 x1 x2 x3 x4 x5 x6 x7
      = Sage.lin (val_main_v48 (F := Ideal) x0 x1 x2 x3 x4) (val_main_v29 (F := Ideal) x0 x1 x2 x3 x4) x5 x6 x7 := by
  funext i
  rw [val_main_v54_apply, val_main_v51_apply, val_main_v49_apply, val_main_v50_apply, val_main_v53_apply, val_main_v52_apply]
  simp only [l49, r49, l50, r50, b53, Ideal.addf_def]
  rfl

/-- THE REFERENCE'S RESULT is the network's function of its eight arguments. -/
theorem result (x0 : (⟨S100000x128, .f32⟩ : BufTy).Contents (Elt Ideal)) (x1 : (⟨S2x1600000, .i32⟩ : BufTy).Contents (Elt Ideal)) (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) :
    val_main_v54 (F := Ideal) x0 x1 x2 x3 x4 x5 x6 x7 = Sage.out x0 x1 x2 x3 x4 x5 x6 x7 := by
  rw [layer2, Sage.ref_second, layer1, Sage.ref_first]
  rfl

end Cert.Sage.Ref

end
-- ==== Proof.lean ====
/-
  Two SAGEConv layers (mean aggregation) on 100000 nodes of 128 features along 1600000 edges: the kernel
  program against its jnp reference, over the extended reals.

  Both programs form a layer's neighbour means by the same host operations (gather the source rows, scatter-add
  them per destination, divide by the clamped degree): one function `agg` of a node array and the edge list,
  never opened. The reference then computes `agg · W_l + x · W_r + b` by two `dot_general`s and adds (`max · 0`
  after the first layer); the kernel program computes the same in a region of 20 grid points, each point
  multiplying its 5000 rows into zero accumulators in a narrower float format. Over the extended reals the
  change of format is the identity and both products are the plain sum over the 128 contracted features, the
  20 row blocks tile the array, and the additions are associated alike: both programs end at

      out = agg h e · W_l2 + h · W_r2 + b2,      h = max (agg x e · W_l1 + x · W_r1 + b1) 0.

  No law of the extended reals beyond `0 + s = s` is used, so the finiteness of the inputs is never opened.
  The frames are the generated ones (the reference's is its generated run with the result dropped); the
  idealization rewrote nothing, so `preserves` is trivial.
-/
import proofs.«176177_j42150809043596_1_alg».proof.Defs
import proofs.«176177_j42150809043596_1_alg».proof.Proof.Gen.Kernel
import proofs.«176177_j42150809043596_1_alg».proof.Proof.Gen.Kernel.Frame
import proofs.«176177_j42150809043596_1_alg».proof.Proof.Gen.KernelIdeal
import proofs.«176177_j42150809043596_1_alg».proof.Proof.Gen.KernelIdeal.Frame
import proofs.«176177_j42150809043596_1_alg».proof.Proof.Gen.ReferenceIdeal
import proofs.«176177_j42150809043596_1_alg».proof.Proof.Gen.ReferenceIdeal.Run
import proofs.«176177_j42150809043596_1_alg».proof.Proof.Gen.ReferenceIdeal.Read
import proofs.«176177_j42150809043596_1_alg».proof.Proof.Gen.Pre_finite_inputs
import proofs.«176177_j42150809043596_1_alg».proof.Proof.KernelRun
import proofs.«176177_j42150809043596_1_alg».proof.Proof.KernelValue
import proofs.«176177_j42150809043596_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the network's function `Sage.out` of the arguments, which agree. -/
theorem algebraic : Cert.algebraic_KernelIdeal_ReferenceIdeal := by
  intro m ρ m' ρ' _ hagree
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Sage.Kernel.result m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v54_eq, Cert.Sage.Ref.result, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
